-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2 : Shape := ⟨2, ![1024, 2]⟩
abbrev S100000x2 : Shape := ⟨2, ![100000, 2]⟩
abbrev S50000x256 : Shape := ⟨2, ![50000, 256]⟩
abbrev S500x256 : Shape := ⟨2, ![500, 256]⟩
abbrev S100000x768 : Shape := ⟨2, ![100000, 768]⟩
abbrev S100000 : Shape := ⟨1, ![100000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S500x256 : S_.BroadcastsInDim S500x256 (![] : Fin 0 → Fin S500x256.rank)
  reducesTo_S500x256_S_d0_1 : S500x256.ReducesTo [0, 1] S_
  bcast_S_S100000x768 : S_.BroadcastsInDim S100000x768 (![] : Fin 0 → Fin S100000x768.rank)
  reducesTo_S100000x768_S_d0_1 : S100000x768.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  main_v18

def fn {F : FTy → Type} [FloatOps F] (main_arg0 : IVec S1024x2 32) (main_arg1 : IVec S100000x2 32) (main_arg2 : FVec F S50000x256 .f32) (main_arg3 : FVec F S500x256 .f32) (main_arg4 : FVec F S100000x768 .f32) (main_arg5 : FVec F S100000 .f32) : IVec S_ 1 :=
  let main_v0 : FVec F S50000x256 .f32 := Host.absf main_arg2
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S500x256 .f32 := Host.absf main_arg3
  let main_cst_0 : FVec F S_ .f32 := constant S_ .f32 0x7F800000#32
  let main_v5 : FVec F S500x256 .f32 := broadcastInDim S500x256 ![] bcast_S_S500x256 main_cst_0
  let main_v6 : IVec S500x256 1 := cmpf .olt main_v4 main_v5
  let main_c_1 : IVec S_ 1 := constantI S_ 1 1#1
  let main_v7 : IVec S_ 1 := (fun x v => Host.reduce IntOp.andi x v reducesTo_S500x256_S_d0_1 h_S_) main_v6 main_c_1
  let main_v8 : IVec S_ 1 := andi main_v3 main_v7
  let main_v9 : FVec F S100000x768 .f32 := Host.absf main_arg4
  let main_cst_2 : FVec F S_ .f32 := constant S_ .f32 0x7F800000#32
  let main_v10 : FVec F S100000x768 .f32 := broadcastInDim S100000x768 ![] bcast_S_S100000x768 main_cst_2
  let main_v11 : IVec S100000x768 1 := cmpf .olt main_v9 main_v10
  let main_c_3 : IVec S_ 1 := constantI S_ 1 1#1
  let main_v12 : IVec S_ 1 := (fun x v => Host.reduce IntOp.andi x v reducesTo_S100000x768_S_d0_1 h_S_) main_v11 main_c_3
  let main_v13 : IVec S_ 1 := andi main_v8 main_v12
  let main_v14 : FVec F S100000 .f32 := Host.absf main_arg5
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_v13 main_v16
-- ==== Kernel.lean ====
abbrev S1024x2 : Shape := ⟨2, ![1024, 2]⟩
abbrev S100000x2 : Shape := ⟨2, ![100000, 2]⟩
abbrev S50000x256 : Shape := ⟨2, ![50000, 256]⟩
abbrev S500x256 : Shape := ⟨2, ![500, 256]⟩
abbrev S100000x768 : Shape := ⟨2, ![100000, 768]⟩
abbrev S100000 : Shape := ⟨1, ![100000]⟩
abbrev S1024x1 : Shape := ⟨2, ![1024, 1]⟩
abbrev S1024 : Shape := ⟨1, ![1024]⟩
abbrev S_ : Shape := ⟨0, ![]⟩
abbrev S1024x256 : Shape := ⟨2, ![1024, 256]⟩
abbrev S1024x768 : Shape := ⟨2, ![1024, 768]⟩
abbrev S100352x768 : Shape := ⟨2, ![100352, 768]⟩
abbrev S100352 : Shape := ⟨1, ![100352]⟩
abbrev S1x100352 : Shape := ⟨2, ![1, 100352]⟩
abbrev S1024x100352 : Shape := ⟨2, ![1024, 100352]⟩
abbrev S1792x768 : Shape := ⟨2, ![1792, 768]⟩
abbrev S1x1792 : Shape := ⟨2, ![1, 1792]⟩
abbrev S1024x1792 : Shape := ⟨2, ![1024, 1792]⟩
abbrev S1024x100000 : Shape := ⟨2, ![1024, 100000]⟩

abbrev nBuf : Space → Nat
  | .hbm => 60
  | .vmem => 7
  | .smem => 0
  | _ => 0

abbrev bufTy : (tb : Table) → Fin (tcTables nBuf tb) → BufTy
  | .hbm, ⟨0, _⟩ => ⟨S1024x2, .i32⟩
  | .hbm, ⟨1, _⟩ => ⟨S100000x2, .i32⟩
  | .hbm, ⟨2, _⟩ => ⟨S50000x256, .f32⟩
  | .hbm, ⟨3, _⟩ => ⟨S500x256, .f32⟩
  | .hbm, ⟨4, _⟩ => ⟨S100000x768, .f32⟩
  | .hbm, ⟨5, _⟩ => ⟨S100000, .f32⟩
  | .hbm, ⟨6, _⟩ => ⟨S1024x1, .i32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x2, .i32⟩
  | .hbm, ⟨19, _⟩ => ⟨S1024x1, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x256, .f32⟩
  | .hbm, ⟨30, _⟩ => ⟨S1024x1, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x256, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x256, .f32⟩
  | .hbm, ⟨50, _⟩ => ⟨S1024x768, .f32⟩
  | .hbm, ⟨51, _⟩ => ⟨S_, .i32⟩
  | .hbm, ⟨52, _⟩ => ⟨S_, .f32⟩
  | .hbm, ⟨53, _⟩ => ⟨S100352x768, .f32⟩
  | .hbm, ⟨54, _⟩ => ⟨S_, .i32⟩
  | .hbm, ⟨55, _⟩ => ⟨S_, .f32⟩
  | .hbm, ⟨56, _⟩ => ⟨S100352, .f32⟩
  | .hbm, ⟨57, _⟩ => ⟨S1x100352, .f32⟩
  | .hbm, ⟨58, _⟩ => ⟨S1024x100352, .f32⟩
  | .hbm, ⟨59, _⟩ => ⟨S1024x100000, .f32⟩
  | .local _ .vmem, ⟨0, _⟩ => ⟨S1024x768, .f32⟩
  | .local _ .vmem, ⟨1, _⟩ => ⟨S1792x768, .f32⟩
  | .local _ .vmem, ⟨2, _⟩ => ⟨S1792x768, .f32⟩
  | .local _ .vmem, ⟨3, _⟩ => ⟨S1x1792, .f32⟩
  | .local _ .vmem, ⟨4, _⟩ => ⟨S1x1792, .f32⟩
  | .local _ .vmem, ⟨5, _⟩ => ⟨S1024x1792, .f32⟩
  | .local _ .vmem, ⟨6, _⟩ => ⟨S1024x1792, .f32⟩
  | _, _ => ⟨S1024x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_7 : Ref sig .tc := ⟨.hbm, 51, rfl⟩
abbrev main_call0_v0 : Ref sig .tc := ⟨.hbm, 52, rfl⟩
abbrev main_v37 : Ref sig .tc := ⟨.hbm, 53, rfl⟩
abbrev main_c_8 : Ref sig .tc := ⟨.hbm, 54, rfl⟩
abbrev main_call1_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S_S1024 : S_.BroadcastsInDim S1024 (![] : Fin 0 → Fin S1024.rank)
  bcast_S1024_S1024x1_0 : S1024.BroadcastsInDim S1024x1 (![0] : Fin 1 → Fin S1024x1.rank)
  concatenates_S1024x256_S1024x256_S1024x256_S1024x768_d1 : Shape.Concatenates [S1024x256, S1024x256, S1024x256] S1024x768 1
  pads_S100000x768_S100352x768_03520_000 : S100000x768.Pads (![0, 0] : Fin 2 → Nat) ![352, 0] ![0, 0] S100352x768
  h_S_ : 0 < S_.numel
  pads_S100000_S100352_03520 : S100000.Pads (![0] : Fin 1 → Nat) ![352] ![0] S100352
  shapeCasts_S100352_S1x100352 : S100352.ShapeCasts S1x100352
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S1792x768_S1792x768_0_0 : ∀ a, (![0, 0] : Fin 2 → Nat) a + S1792x768.size a ≤ S1792x768.size a
  h_S1792x768 : 0 < S1792x768.numel
  shapeCasts_S1792x768_S1792x768 : S1792x768.ShapeCasts S1792x768
  inb_S1x1792_S1x1792_0_0 : ∀ a, (![0, 0] : Fin 2 → Nat) a + S1x1792.size a ≤ S1x1792.size a
  h_S1x1792 : 0 < S1x1792.numel
  shapeCasts_S1x1792_S1x1792 : S1x1792.ShapeCasts S1x1792
  broadcasts_S1x1792_S1024x1792 : S1x1792.Broadcasts S1024x1792
  inb_S1024x1792_S1024x1792_0_0 : ∀ a, (![0, 0] : Fin 2 → Nat) a + S1024x1792.size a ≤ S1024x1792.size a
  h_S1024x1792 : 0 < S1024x1792.numel
  slices_S1024x100352_S1024x100000_0_0 : S1024x100352.Slices ![0, 0] S1024x100000
  gather_S100000x2_S1024x1_S1024x2_1_0_n_n_0_1_12_wf : GatherDims.WF S100000x2 S1024x1 S1024x2 [1] [0] [] [0] [] 1 ![1, 2]
  gather_S50000x256_S1024x1_S1024x256_1_0_n_n_0_1_1256_wf : GatherDims.WF S50000x256 S1024x1 S1024x256 [1] [0] [] [0] [] 1 ![1, 256]
  gather_S500x256_S1024x1_S1024x256_1_0_n_n_0_1_1256_wf : GatherDims.WF S500x256 S1024x1 S1024x256 [1] [0] [] [0] [] 1 ![1, 256]
  dot_S1024x768_S1792x768_S1024x1792_1_1_0_0_n_n_wf : DotDims.WF S1024x768 S1792x768 S1024x1792 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S1024x768.size a
  hwx0_0 : ∀ i : grid0.Coords, EltTy.bits .f32 = 32 ∨ (Rect.block (s := S1024x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1792x768.size a ≤ S100352x768.size a
  hwx0_1 : ∀ i : grid0.Coords, EltTy.bits .f32 = 32 ∨ (Rect.block (s := S100352x768) S1792x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1792.size a ≤ S1x100352.size a
  hwx0_2 : ∀ i : grid0.Coords, EltTy.bits .f32 = 32 ∨ (Rect.block (s := S1x100352) S1x1792.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1792.size a ≤ S1024x100352.size a
  hwx0_3 : ∀ i : grid0.Coords, EltTy.bits .f32 = 32 ∨ (Rect.block (s := S1024x100352) S1024x1792.size (cc0_transform_3 i) (hinb0_3 i)).WholeWords (EltTy.packing .f32)

variable [Facts₀]

def gather_S100000x2_S1024x1_S1024x2_1_0_n_n_0_1_12 : GatherDims S100000x2 S1024x1 S1024x2 where
  offsetDims := [1]
  collapsedSliceDims := [0]
  operandBatchingDims := []
  startIndicesBatchingDims := []
  startIndexMap := [0]
  indexVectorDim := 1
  sliceSizes := ![1, 2]
  wf := gather_S100000x2_S1024x1_S1024x2_1_0_n_n_0_1_12_wf
def gather_S50000x256_S1024x1_S1024x256_1_0_n_n_0_1_1256 : GatherDims S50000x256 S1024x1 S1024x256 where
  offsetDims := [1]
  collapsedSliceDims := [0]
  operandBatchingDims := []
  startIndicesBatchingDims := []
  startIndexMap := [0]
  indexVectorDim := 1
  sliceSizes := ![1, 256]
  wf := gather_S50000x256_S1024x1_S1024x256_1_0_n_n_0_1_1256_wf
def gather_S500x256_S1024x1_S1024x256_1_0_n_n_0_1_1256 : GatherDims S500x256 S1024x1 S1024x256 where
  offsetDims := [1]
  collapsedSliceDims := [0]
  operandBatchingDims := []
  startIndicesBatchingDims := []
  startIndexMap := [0]
  indexVectorDim := 1
  sliceSizes := ![1, 256]
  wf := gather_S500x256_S1024x1_S1024x256_1_0_n_n_0_1_1256_wf
def dot_S1024x768_S1792x768_S1024x1792_1_1_0_0_n_n : DotDims S1024x768 S1792x768 S1024x1792 where
  lhsContracting := [1]
  rhsContracting := [1]
  lhsNonContracting := [0]
  rhsNonContracting := [0]
  lhsBatch := []
  rhsBatch := []
  wf := dot_S1024x768_S1792x768_S1024x1792_1_1_0_0_n_n_wf

abbrev win0_0 : Pipeline.Window sig grid0 :=
  Pipeline.Window.ofSpec (Memref.whole main_v36) S1024x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1792x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x1792.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x1792.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x2 : Shape := ⟨2, ![1024, 2]⟩
abbrev S100000x2 : Shape := ⟨2, ![100000, 2]⟩
abbrev S50000x256 : Shape := ⟨2, ![50000, 256]⟩
abbrev S500x256 : Shape := ⟨2, ![500, 256]⟩
abbrev S100000x768 : Shape := ⟨2, ![100000, 768]⟩
abbrev S100000 : Shape := ⟨1, ![100000]⟩
abbrev S1024x1 : Shape := ⟨2, ![1024, 1]⟩
abbrev S1024 : Shape := ⟨1, ![1024]⟩
abbrev S_ : Shape := ⟨0, ![]⟩
abbrev S1024x256 : Shape := ⟨2, ![1024, 256]⟩
abbrev S1024x768 : Shape := ⟨2, ![1024, 768]⟩
abbrev S768x100000 : Shape := ⟨2, ![768, 100000]⟩
abbrev S1024x100000 : Shape := ⟨2, ![1024, 100000]⟩
abbrev S1x100000 : Shape := ⟨2, ![1, 100000]⟩

abbrev nBuf : Space → Nat
  | .hbm => 56
  | .vmem => 0
  | .smem => 0
  | _ => 0

abbrev bufTy : (tb : Table) → Fin (tcTables nBuf tb) → BufTy
  | .hbm, ⟨0, _⟩ => ⟨S1024x2, .i32⟩
  | .hbm, ⟨1, _⟩ => ⟨S100000x2, .i32⟩
  | .hbm, ⟨2, _⟩ => ⟨S50000x256, .f32⟩
  | .hbm, ⟨3, _⟩ => ⟨S500x256, .f32⟩
  | .hbm, ⟨4, _⟩ => ⟨S100000x768, .f32⟩
  | .hbm, ⟨5, _⟩ => ⟨S100000, .f32⟩
  | .hbm, ⟨6, _⟩ => ⟨S1024x1, .i32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x2, .i32⟩
  | .hbm, ⟨19, _⟩ => ⟨S1024x1, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x256, .f32⟩
  | .hbm, ⟨30, _⟩ => ⟨S1024x1, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i1⟩
  | .hbm, ⟨35, _⟩ => ⟨S_, .i32⟩
  | .hbm, ⟨36, _⟩ => ⟨S1024, .i32⟩
  | .hbm, ⟨37, _⟩ => ⟨S1024, .i32⟩
  | .hbm, ⟨38, _⟩ => ⟨S1024, .i32⟩
  | .hbm, ⟨39, _⟩ => ⟨S1024x1, .i32⟩
  | .hbm, ⟨40, _⟩ => ⟨S1024x256, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x256, .f32⟩
  | .hbm, ⟨50, _⟩ => ⟨S1024x768, .f32⟩
  | .hbm, ⟨51, _⟩ => ⟨S768x100000, .f32⟩
  | .hbm, ⟨52, _⟩ => ⟨S1024x100000, .f32⟩
  | .hbm, ⟨53, _⟩ => ⟨S1x100000, .f32⟩
  | .hbm, ⟨54, _⟩ => ⟨S1024x100000, .f32⟩
  | .hbm, ⟨55, _⟩ => ⟨S1024x100000, .f32⟩
  | _, _ => ⟨S1024x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  slices_S1024x2_S1024x1_0_0 : S1024x2.Slices ![0, 0] S1024x1
  shapeCasts_S1024x1_S1024 : S1024x1.ShapeCasts S1024
  slices_S1024x2_S1024x1_0_1 : S1024x2.Slices ![0, 1] S1024x1
  bcast_S_S1024 : S_.BroadcastsInDim S1024 (![] : Fin 0 → Fin S1024.rank)
  bcast_S1024_S1024x1_0 : S1024.BroadcastsInDim S1024x1 (![0] : Fin 1 → Fin S1024x1.rank)
  concatenates_S1024x256_S1024x256_S1024x256_S1024x768_d1 : Shape.Concatenates [S1024x256, S1024x256, S1024x256] S1024x768 1
  transposes_S100000x768_S768x100000_1_0 : S100000x768.Transposes [1, 0] S768x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x2_S1024x1_S1024x2_1_0_n_n_0_1_12_wf : GatherDims.WF S100000x2 S1024x1 S1024x2 [1] [0] [] [0] [] 1 ![1, 2]
  gather_S50000x256_S1024x1_S1024x256_1_0_n_n_0_1_1256_wf : GatherDims.WF S50000x256 S1024x1 S1024x256 [1] [0] [] [0] [] 1 ![1, 256]
  gather_S500x256_S1024x1_S1024x256_1_0_n_n_0_1_1256_wf : GatherDims.WF S500x256 S1024x1 S1024x256 [1] [0] [] [0] [] 1 ![1, 256]
  dot_S1024x768_S768x100000_S1024x100000_1_0_0_1_n_n_wf : DotDims.WF S1024x768 S768x100000 S1024x100000 [1] [0] [0] [1] [] []

variable [Facts₀]

def gather_S100000x2_S1024x1_S1024x2_1_0_n_n_0_1_12 : GatherDims S100000x2 S1024x1 S1024x2 where
  offsetDims := [1]
  collapsedSliceDims := [0]
  operandBatchingDims := []
  startIndicesBatchingDims := []
  startIndexMap := [0]
  indexVectorDim := 1
  sliceSizes := ![1, 2]
  wf := gather_S100000x2_S1024x1_S1024x2_1_0_n_n_0_1_12_wf
def gather_S50000x256_S1024x1_S1024x256_1_0_n_n_0_1_1256 : GatherDims S50000x256 S1024x1 S1024x256 where
  offsetDims := [1]
  collapsedSliceDims := [0]
  operandBatchingDims := []
  startIndicesBatchingDims := []
  startIndexMap := [0]
  indexVectorDim := 1
  sliceSizes := ![1, 256]
  wf := gather_S50000x256_S1024x1_S1024x256_1_0_n_n_0_1_1256_wf
def gather_S500x256_S1024x1_S1024x256_1_0_n_n_0_1_1256 : GatherDims S500x256 S1024x1 S1024x256 where
  offsetDims := [1]
  collapsedSliceDims := [0]
  operandBatchingDims := []
  startIndicesBatchingDims := []
  startIndexMap := [0]
  indexVectorDim := 1
  sliceSizes := ![1, 256]
  wf := gather_S500x256_S1024x1_S1024x256_1_0_n_n_0_1_1256_wf
def dot_S1024x768_S768x100000_S1024x100000_1_0_0_1_n_n : DotDims S1024x768 S768x100000 S1024x100000 where
  lhsContracting := [1]
  rhsContracting := [0]
  lhsNonContracting := [0]
  rhsNonContracting := [1]
  lhsBatch := []
  rhsBatch := []
  wf := dot_S1024x768_S768x100000_S1024x100000_1_0_0_1_n_n_wf

class Facts : Prop extends Facts₀ where

variable [Facts]
-- ==== Proof.Kernel.Around.lean ====
/-
  The host program around the one launch. @main is five stretches of host operations (the index
  arithmetic and the three row gathers that build the activations, their concatenation, the zero
  padding of the weight rows and of the bias up to a whole number of column tiles, the bias as one
  row), the launch, and one last operation that cuts the padded columns off again. This file says
  what each buffer holds when the launch begins, that @main is those stretches around the launch,
  and that no host operation before or after it writes an argument array.
-/
import proofs.«122158_j5403068859161_1_alg».proof.Proof.Gen.Kernel.Launch
import proofs.«122158_j5403068859161_1_alg».proof.Proof.Gen.Kernel.Points
import Idealize.ShloMosaic.Lib.Pipeline.FrameBody
import Idealize.ShloMosaic.Lib.Pipeline.FrameSuffix

set_option maxRecDepth 16384

noncomputable section

namespace Cert.Kernel.Around

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.Kernel Cert.Kernel.Gen

variable {F : FTy → Type} [FloatOps F]

/-- The stretches of host operations before the launch, in order, and the one after it. -/
abbrev ahead : List (List (HloOp τ sig (Elt F))) := [hostOps0, hostOps0_1, hostOps0_2, hostOps0_3, hostOps0_4]
abbrev behind : List (List (HloOp τ sig (Elt F))) := [hostOps1]

variable (m : (ℓ : Loc nD τ sig) → Buf (Elt F) ℓ) (ρ : Dev nD → PrngReg)

/-- What core `c`'s buffers hold when the launch begins: the launch memory taken through the
    operations ahead of it. -/
abbrev V0 (c : Dev nD) : Valuation τ sig (Elt F) := StableHlo.after (List.flatten ahead) (fun b => m (c, b))
/-- The same, read at a TensorCore reference. -/
abbrev V (c : Dev nD) (b : Ref sig .tc) : Buf (Elt F) ((c : Thread nD τ).loc b) := V0 m c (Proc.devRef .tc b)

/-! ## No host operation allocates -/

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-! ## @main is the stretches around the launch -/

/-- @main runs the stretches ahead, enters the launch, and continues with the last operation. -/
theorem main_around (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main ahead behind
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-! ## The operation after the launch -/

/-- It touches unscoped TensorCore buffers only, -/
theorem behind_sub : ∀ ops ∈ (behind : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- allocates nothing, -/
theorem behind_fresh : ∀ ops ∈ (behind : List (List (HloOp τ sig (Elt F)))), ∀ op ∈ ops, op.fresh = ∅ := by
  intro ops hops op hop
  simp only [List.mem_cons, List.mem_nil_iff, or_false] at hops
  subst hops
  exact (List.forall_iff_forall_mem.mp fresh1) op hop
/-- and writes its own result only: the sliced output, which is no array the launch stages. -/
theorem behind_keeps : ∀ ops ∈ (behind : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.unary_writes, Finset.mem_singleton] <;> exact StableHlo.devRef_ne_of_ne (by decide)

/-! ## The argument arrays are written by no host operation -/

/-- Every buffer some operation ahead of the launch writes: each operation's own result. -/
abbrev written : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_c, main_c_0, main_c_1, main_c_2, main_c_3, main_c_4, main_c_5, main_c_6, main_c_7, main_c_8, main_call0_v0, main_call1_v0]

theorem ahead_writes : (List.flatten (ahead : List (List (HloOp τ sig (Elt F))))).Forall fun op =>
    op.writes ⊆ (written.map (Proc.devRef (τ := τ) .tc)).toFinset := by
  simp only [ahead, hostOps0, hostOps0_1, hostOps0_2, hostOps0_3, hostOps0_4, List.flatten_cons, List.flatten_nil, List.append_nil,
    List.cons_append, List.nil_append, List.Forall, StableHlo.TRef.unary, StableHlo.TRef.binary,
    StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

/-- `main_arg0` is as launched when the launch begins. -/
theorem V_main_arg0 (c : Dev nD) : V m c main_arg0 = m ((c : Thread nD τ).loc main_arg0) :=
  StableHlo.after_of_writes_sub (W := written) (r := main_arg0) _ _ ahead_writes (by decide)
/-- `main_arg1` is as launched when the launch begins. -/
theorem V_main_arg1 (c : Dev nD) : V m c main_arg1 = m ((c : Thread nD τ).loc main_arg1) :=
  StableHlo.after_of_writes_sub (W := written) (r := main_arg1) _ _ ahead_writes (by decide)
/-- `main_arg2` is as launched when the launch begins. -/
theorem V_main_arg2 (c : Dev nD) : V m c main_arg2 = m ((c : Thread nD τ).loc main_arg2) :=
  StableHlo.after_of_writes_sub (W := written) (r := main_arg2) _ _ ahead_writes (by decide)
/-- `main_arg3` is as launched when the launch begins. -/
theorem V_main_arg3 (c : Dev nD) : V m c main_arg3 = m ((c : Thread nD τ).loc main_arg3) :=
  StableHlo.after_of_writes_sub (W := written) (r := main_arg3) _ _ ahead_writes (by decide)
/-- `main_arg4` is as launched when the launch begins. -/
theorem V_main_arg4 (c : Dev nD) : V m c main_arg4 = m ((c : Thread nD τ).loc main_arg4) :=
  StableHlo.after_of_writes_sub (W := written) (r := main_arg4) _ _ ahead_writes (by decide)
/-- `main_arg5` is as launched when the launch begins. -/
theorem V_main_arg5 (c : Dev nD) : V m c main_arg5 = m ((c : Thread nD τ).loc main_arg5) :=
  StableHlo.after_of_writes_sub (W := written) (r := main_arg5) _ _ ahead_writes (by decide)

variable {m} in
/-- The last operation writes the sliced output only, and the launch writes its own arrays only: a buffer
    that is neither ends as the launch found it. -/
theorem tail_keeps (dats : (p : Fin 1) → (c : Dev nD) → Dat τ (Elt F) Unit ℕ (UR sig nD τ) ℕ (cfgs p) c) (c : Dev nD)
    (b : Ref sig .tc) (hb : b ≠ main_v41) (hw : ∀ w, Pipeline.arrRef spec0 w ≠ b) :
    Pipeline.afterTail₀ cfgs dats 0 (V0 m) behind c b = V m c b := by
  unfold Pipeline.afterTail₀
  rw [StableHlo.after_of_forall_not_mem (b := Proc.devRef .tc b) _ _ (by
      intro op hop
      simp only [behind, hostOps1, List.flatten_cons, List.flatten_nil, List.append_nil, List.mem_cons, List.mem_nil_iff, or_false] at hop
      subst hop
      simp only [StableHlo.unary_writes, Finset.mem_singleton]
      exact StableHlo.devRef_ne_of_ne hb),
    Pipeline.withArrays_of_ne _ c (V0 m c) _ b hw]

end Cert.Kernel.Around

end
-- ==== Proof.Kernel.Tile.lean ====
/-
  One tile of the linear layer. The body loads the whole activation block (1024 x 768), one block
  of 1792 weight rows (1792 x 768) and the matching 1 x 1792 piece of the bias row, multiplies the
  activations by the transposed weight rows, adds the bias to every row, and stores the 1024 x 1792
  result over the whole output tile. Every access is the whole staging buffer, so the tile ends at
  the body's arithmetic applied to the three inputs, whatever it held before.
-/
import proofs.«122158_j5403068859161_1_alg».proof.Proof.Gen.Kernel.Skeleton
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The output tile after the body: the product of the activations with the transposed weight block,
    plus the bias piece on every row. -/
abbrev tileOut (x : Vec F S1024x768 .f32) (w : Vec F S1792x768 .f32) (b : Vec F S1x1792 .f32) : Vec F S1024x1792 .f32 :=
  k0_pay1 x w b

/-! ## The four accesses: each the whole buffer, from offset zero -/

theorem zero2 : (![0, 0] : Fin 2 → Nat) = fun _ => 0 := funext fun a => by fin_cases a <;> rfl

abbrev boxX : Rect S1024x768 := Rect.unit (s := S1024x768) ![0, 0] S1024x768.size inb_S1024x768_S1024x768_0_0
abbrev boxW : Rect S1792x768 := Rect.unit (s := S1792x768) ![0, 0] S1792x768.size inb_S1792x768_S1792x768_0_0
abbrev boxB : Rect S1x1792 := Rect.unit (s := S1x1792) ![0, 0] S1x1792.size inb_S1x1792_S1x1792_0_0
abbrev boxO : Rect S1024x1792 := Rect.unit (s := S1024x1792) ![0, 0] S1024x1792.size inb_S1024x1792_S1024x1792_0_0

/-- One store over the whole tile leaves its value, whatever the tile held. -/
theorem store_whole (v : View sig .tc .vmem S1024x1792 .f32) (f : v.ty.Contents (Elt F)) (p : S1024x1792.Idx → Elt F .f32) :
    v.read (Elt F) (v.writes (Elt F) f [⟨boxO, p⟩]) = p := by
  rw [View.read_writes_eq_canon _ _ _ (fun y => ⟨_, List.mem_singleton_self _, View.mem_set_unit_zero zero2 inb_S1024x1792_S1024x1792_0_0 y⟩)]
  exact View.canon_unit_zero zero2 _ p

set_option maxHeartbeats 1000000 in
/-- The body on whole staging buffers: the three inputs stay as they are, the output tile, whatever it
    held, ends at `tileOut` of them. -/
theorem tile_triple (c : Dev nD) (E : Set ℕ) (i : grid0.Coords)
    (arg1 : Memref sig .tc .vmem S1024x768 .f32) (harg1 : arg1.IsWhole)
    (arg2 : Memref sig .tc .vmem S1792x768 .f32) (harg2 : arg2.IsWhole)
    (arg3 : Memref sig .tc .vmem S1x1792 .f32) (harg3 : arg3.IsWhole)
    (arg4 : Memref sig .tc .vmem S1024x1792 .f32) (harg4 : arg4.IsWhole)
    (x : Vec F S1024x768 .f32) (w : Vec F S1792x768 .f32) (b : Vec F S1x1792 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (tileOut x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists (arg4.view.writes (Elt F) f3 [⟨boxO, k0_pay1 (View.readAt (Elt F) arg1.view boxX.toLoadRect f0)
    (View.readAt (Elt F) arg2.view boxW.toLoadRect f1) (View.readAt (Elt F) arg3.view boxB.toLoadRect f2)⟩])
  isplitr
  · ipureintro
    rw [store_whole]
    simp only [View.readAt_eq_ld, View.ld_unit_zero (S := S1024x768) zero2, View.ld_unit_zero (S := S1792x768) zero2,
      View.ld_unit_zero (S := S1x1792) zero2]
  iexact H3

end Cert.Kernel.Tile

end
-- ==== Proof.Kernel.Region.lean ====
/-
  The launch: 56 grid points, one per block of 1792 output columns. At every point the activations
  are the one whole block (fetched once), the weight rows and the bias piece are the point's own
  blocks, and the output tile is written back to its own 1792 columns. This file gives the launch
  its proof data, discharges the body at every point from the tile's triple, runs @main through
  the launch, and reads the run at the six argument arrays: they end as launched.
-/
import proofs.«122158_j5403068859161_1_alg».proof.Proof.Kernel.Around
import proofs.«122158_j5403068859161_1_alg».proof.Proof.Kernel.Tile

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Around Cert.Kernel.Tile

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the proof data -/

/-- Window `w`'s block at point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`: the arrays as the launch finds them; after the body at point `t` each input's
    staging buffer still at its block and the output's at the tile computed from the three blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => tileOut (blockAt m c 0 t) (blockAt m c 1 t) (blockAt m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) :
    (dats m 0 c).after 3 t = tileOut (blockAt m c 0 t) (blockAt m c 1 t) (blockAt m c 2 t) := by dsimp only [dats]

/-! ## What the body finds in each input's staging buffer

An input the body leaves in place holds its block at every point, fetched there or not: the activations are
fetched at the first point only and their block index never moves; the weight rows and the bias piece are
fetched at every point. -/

theorem found0 (c : Dev nD) (t : Fin cfg0.N) (d) : (dats m 0 c).before 0 t d = blockAt m c 0 t :=
  ((dats m 0 c).before_in_eq_fetched 0 rfl (fun _ => rfl) (fun _ _ _ => rfl)
    (fun t => by rw [after0]; unfold Dat.blockOf blockAt; rw [A_eq]; try rfl) t d).trans
    (by unfold Dat.fetched Dat.blockOf blockAt; rw [A_eq]; try rfl)
theorem found1 (c : Dev nD) (t : Fin cfg0.N) (d) : (dats m 0 c).before 1 t d = blockAt m c 1 t :=
  ((dats m 0 c).before_in_eq_fetched 1 rfl (fun _ => rfl) (fun _ _ _ => rfl)
    (fun t => by rw [after1]; unfold Dat.blockOf blockAt; rw [A_eq]; try rfl) t d).trans
    (by unfold Dat.fetched Dat.blockOf blockAt; rw [A_eq]; try rfl)
theorem found2 (c : Dev nD) (t : Fin cfg0.N) (d) : (dats m 0 c).before 2 t d = blockAt m c 2 t :=
  ((dats m 0 c).before_in_eq_fetched 2 rfl (fun _ => rfl) (fun _ _ _ => rfl)
    (fun t => by rw [after2]; unfold Dat.blockOf blockAt; rw [A_eq]; try rfl) t d).trans
    (by unfold Dat.fetched Dat.blockOf blockAt; rw [A_eq]; try rfl)

/-! ## The body at a point -/

/-- What the body is handed at point `t`, the four windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: its inputs hold their blocks, so the tile's triple applies; the invariant and what
    the core owes pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [found0, found1, found2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (tile_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates; every array the launch
    stages ends at what the write-backs leave, every other unscoped buffer as the last operation leaves it. -/
theorem run_main : θ_run defs (onTc (τ := τ) (main (F := F))) (s₀ m ρ)
    (Pipeline.FramePost cfgs (dats m) 0 (Pipeline.afterTail₀ cfgs (dats m) 0 (V0 m) behind)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := behind) (hsub := behind_sub) (hfresh := behind_fresh) (hkeep := behind_keeps)
    (hmain := main_around m Variants.none) (hA := A_eq m) (hΦ := fun _ _ => rfl)

/-- An argument array is staged by no window and written by no host operation: it ends as launched. -/
theorem arg_kept (r : PUnit × MemSt nD τ sig (Elt F))
    (h : Pipeline.FramePost cfgs (dats m) 0 (Pipeline.afterTail₀ cfgs (dats m) 0 (V0 m) behind) r) (c : Dev nD)
    (b : Ref sig .tc) (hs : b.isScoped = false) (hb : b ≠ main_v41) (hw : ∀ w, Pipeline.arrRef spec0 w ≠ b)
    (hV : V m c b = m ((c : Thread nD τ).loc b)) :
    r.2.mem ((c.tc : Thread nD τ).loc b) = m ((c.tc : Thread nD τ).loc b) :=
  (((h c).2 b (Pipeline.mem_restRefs_of b hs hw)).trans (tail_keeps (dats m) c b hb hw)).trans hV

/-- The program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨arg_kept m r h c main_arg0 (by decide) (by decide) (by decide) (V_main_arg0 m c),
     arg_kept m r h c main_arg1 (by decide) (by decide) (by decide) (V_main_arg1 m c),
     arg_kept m r h c main_arg2 (by decide) (by decide) (by decide) (V_main_arg2 m c),
     arg_kept m r h c main_arg3 (by decide) (by decide) (by decide) (V_main_arg3 m c),
     arg_kept m r h c main_arg4 (by decide) (by decide) (by decide) (V_main_arg4 m c),
     arg_kept m r h c main_arg5 (by decide) (by decide) (by decide) (V_main_arg5 m c)⟩) (run_main m ρ)

end Cert.Kernel.Region

end
-- ==== Proof.KernelIdeal.Around.lean ====
/-
  The host program around the one launch. @main is five stretches of host operations (the index
  arithmetic and the three row gathers that build the activations, their concatenation, the zero
  padding of the weight rows and of the bias up to a whole number of column tiles, the bias as one
  row), the launch, and one last operation that cuts the padded columns off again. This file says
  what each buffer holds when the launch begins, that @main is those stretches around the launch,
  and that no host operation before or after it writes an argument array.
-/
import proofs.«122158_j5403068859161_1_alg».proof.Proof.Gen.KernelIdeal.Launch
import proofs.«122158_j5403068859161_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Around

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)
open Cert.KernelIdeal Cert.KernelIdeal.Gen

variable {F : FTy → Type} [FloatOps F]

/-- The stretches of host operations before the launch, in order, and the one after it. -/
abbrev ahead : List (List (HloOp τ sig (Elt F))) := [hostOps0, hostOps0_1, hostOps0_2, hostOps0_3, hostOps0_4]
abbrev behind : List (List (HloOp τ sig (Elt F))) := [hostOps1]

variable (m : (ℓ : Loc nD τ sig) → Buf (Elt F) ℓ) (ρ : Dev nD → PrngReg)

/-- What core `c`'s buffers hold when the launch begins: the launch memory taken through the
    operations ahead of it. -/
abbrev V0 (c : Dev nD) : Valuation τ sig (Elt F) := StableHlo.after (List.flatten ahead) (fun b => m (c, b))
/-- The same, read at a TensorCore reference. -/
abbrev V (c : Dev nD) (b : Ref sig .tc) : Buf (Elt F) ((c : Thread nD τ).loc b) := V0 m c (Proc.devRef .tc b)

/-! ## No host operation allocates -/

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-! ## @main is the stretches around the launch -/

/-- @main runs the stretches ahead, enters the launch, and continues with the last operation. -/
theorem main_around (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main ahead behind
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-! ## The operation after the launch -/

/-- It touches unscoped TensorCore buffers only, -/
theorem behind_sub : ∀ ops ∈ (behind : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
/-- allocates nothing, -/
theorem behind_fresh : ∀ ops ∈ (behind : List (List (HloOp τ sig (Elt F)))), ∀ op ∈ ops, op.fresh = ∅ := by
  intro ops hops op hop
  simp only [List.mem_cons, List.mem_nil_iff, or_false] at hops
  subst hops
  exact (List.forall_iff_forall_mem.mp fresh1) op hop
/-- and writes its own result only: the sliced output, which is no array the launch stages. -/
theorem behind_keeps : ∀ ops ∈ (behind : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w
  fin_cases w <;> simp only [StableHlo.unary_writes, Finset.mem_singleton] <;> exact StableHlo.devRef_ne_of_ne (by decide)

/-! ## The argument arrays are written by no host operation -/

/-- Every buffer some operation ahead of the launch writes: each operation's own result. -/
abbrev written : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_c, main_c_0, main_c_1, main_c_2, main_c_3, main_c_4, main_c_5, main_c_6, main_c_7, main_c_8, main_call0_v0, main_call1_v0]

theorem ahead_writes : (List.flatten (ahead : List (List (HloOp τ sig (Elt F))))).Forall fun op =>
    op.writes ⊆ (written.map (Proc.devRef (τ := τ) .tc)).toFinset := by
  simp only [ahead, hostOps0, hostOps0_1, hostOps0_2, hostOps0_3, hostOps0_4, List.flatten_cons, List.flatten_nil, List.append_nil,
    List.cons_append, List.nil_append, List.Forall, StableHlo.TRef.unary, StableHlo.TRef.binary,
    StableHlo.nullary_writes, StableHlo.unary_writes, StableHlo.binary_writes, StableHlo.ternary_writes,
    StableHlo.reshape_writes, StableHlo.nary_writes, Finset.singleton_subset_iff, List.mem_toFinset]
  repeat' apply And.intro
  all_goals exact List.mem_map_of_mem (by decide)

/-- `main_arg0` is as launched when the launch begins. -/
theorem V_main_arg0 (c : Dev nD) : V m c main_arg0 = m ((c : Thread nD τ).loc main_arg0) :=
  StableHlo.after_of_writes_sub (W := written) (r := main_arg0) _ _ ahead_writes (by decide)
/-- `main_arg1` is as launched when the launch begins. -/
theorem V_main_arg1 (c : Dev nD) : V m c main_arg1 = m ((c : Thread nD τ).loc main_arg1) :=
  StableHlo.after_of_writes_sub (W := written) (r := main_arg1) _ _ ahead_writes (by decide)
/-- `main_arg2` is as launched when the launch begins. -/
theorem V_main_arg2 (c : Dev nD) : V m c main_arg2 = m ((c : Thread nD τ).loc main_arg2) :=
  StableHlo.after_of_writes_sub (W := written) (r := main_arg2) _ _ ahead_writes (by decide)
/-- `main_arg3` is as launched when the launch begins. -/
theorem V_main_arg3 (c : Dev nD) : V m c main_arg3 = m ((c : Thread nD τ).loc main_arg3) :=
  StableHlo.after_of_writes_sub (W := written) (r := main_arg3) _ _ ahead_writes (by decide)
/-- `main_arg4` is as launched when the launch begins. -/
theorem V_main_arg4 (c : Dev nD) : V m c main_arg4 = m ((c : Thread nD τ).loc main_arg4) :=
  StableHlo.after_of_writes_sub (W := written) (r := main_arg4) _ _ ahead_writes (by decide)
/-- `main_arg5` is as launched when the launch begins. -/
theorem V_main_arg5 (c : Dev nD) : V m c main_arg5 = m ((c : Thread nD τ).loc main_arg5) :=
  StableHlo.after_of_writes_sub (W := written) (r := main_arg5) _ _ ahead_writes (by decide)

variable {m} in
/-- The last operation writes the sliced output only, and the launch writes its own arrays only: a buffer
    that is neither ends as the launch found it. -/
theorem tail_keeps (dats : (p : Fin 1) → (c : Dev nD) → Dat τ (Elt F) Unit ℕ (UR sig nD τ) ℕ (cfgs p) c) (c : Dev nD)
    (b : Ref sig .tc) (hb : b ≠ main_v41) (hw : ∀ w, Pipeline.arrRef spec0 w ≠ b) :
    Pipeline.afterTail₀ cfgs dats 0 (V0 m) behind c b = V m c b := by
  unfold Pipeline.afterTail₀
  rw [StableHlo.after_of_forall_not_mem (b := Proc.devRef .tc b) _ _ (by
      intro op hop
      simp only [behind, hostOps1, List.flatten_cons, List.flatten_nil, List.append_nil, List.mem_cons, List.mem_nil_iff, or_false] at hop
      subst hop
      simp only [StableHlo.unary_writes, Finset.mem_singleton]
      exact StableHlo.devRef_ne_of_ne hb),
    Pipeline.withArrays_of_ne _ c (V0 m c) _ b hw]

end Cert.KernelIdeal.Around

end
-- ==== Proof.KernelIdeal.Tile.lean ====
/-
  One tile of the linear layer. The body loads the whole activation block (1024 x 768), one block
  of 1792 weight rows (1792 x 768) and the matching 1 x 1792 piece of the bias row, multiplies the
  activations by the transposed weight rows, adds the bias to every row, and stores the 1024 x 1792
  result over the whole output tile. Every access is the whole staging buffer, so the tile ends at
  the body's arithmetic applied to the three inputs, whatever it held before.
-/
import proofs.«122158_j5403068859161_1_alg».proof.Proof.Gen.KernelIdeal.Skeleton
import Idealize.ShloMosaic.Lib.Pipeline.FrameBody
import Idealize.ShloMosaic.Lib.Pipeline.Value
import Idealize.ShloMosaic.Lib.Pipeline.Kit
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The output tile after the body: the product of the activations with the transposed weight block,
    plus the bias piece on every row. -/
abbrev tileOut (x : Vec F S1024x768 .f32) (w : Vec F S1792x768 .f32) (b : Vec F S1x1792 .f32) : Vec F S1024x1792 .f32 :=
  k0_pay1 x w b

/-! ## The four accesses: each the whole buffer, from offset zero -/

theorem zero2 : (![0, 0] : Fin 2 → Nat) = fun _ => 0 := funext fun a => by fin_cases a <;> rfl

abbrev boxX : Rect S1024x768 := Rect.unit (s := S1024x768) ![0, 0] S1024x768.size inb_S1024x768_S1024x768_0_0
abbrev boxW : Rect S1792x768 := Rect.unit (s := S1792x768) ![0, 0] S1792x768.size inb_S1792x768_S1792x768_0_0
abbrev boxB : Rect S1x1792 := Rect.unit (s := S1x1792) ![0, 0] S1x1792.size inb_S1x1792_S1x1792_0_0
abbrev boxO : Rect S1024x1792 := Rect.unit (s := S1024x1792) ![0, 0] S1024x1792.size inb_S1024x1792_S1024x1792_0_0

/-- One store over the whole tile leaves its value, whatever the tile held. -/
theorem store_whole (v : View sig .tc .vmem S1024x1792 .f32) (f : v.ty.Contents (Elt F)) (p : S1024x1792.Idx → Elt F .f32) :
    v.read (Elt F) (v.writes (Elt F) f [⟨boxO, p⟩]) = p := by
  rw [View.read_writes_eq_canon _ _ _ (fun y => ⟨_, List.mem_singleton_self _, View.mem_set_unit_zero zero2 inb_S1024x1792_S1024x1792_0_0 y⟩)]
  exact View.canon_unit_zero zero2 _ p

set_option maxHeartbeats 1000000 in
/-- The body on whole staging buffers: the three inputs stay as they are, the output tile, whatever it
    held, ends at `tileOut` of them. -/
theorem tile_triple (c : Dev nD) (E : Set ℕ) (i : grid0.Coords)
    (arg1 : Memref sig .tc .vmem S1024x768 .f32) (harg1 : arg1.IsWhole)
    (arg2 : Memref sig .tc .vmem S1792x768 .f32) (harg2 : arg2.IsWhole)
    (arg3 : Memref sig .tc .vmem S1x1792 .f32) (harg3 : arg3.IsWhole)
    (arg4 : Memref sig .tc .vmem S1024x1792 .f32) (harg4 : arg4.IsWhole)
    (x : Vec F S1024x768 .f32) (w : Vec F S1792x768 .f32) (b : Vec F S1x1792 .f32) (K : PUnit → sProp 𝕄) :
    iprop(owns (c : Thread nD τ) arg1 fullShare x ∗ owns (c : Thread nD τ) arg2 fullShare w
        ∗ owns (c : Thread nD τ) arg3 fullShare b ∗ (∃ d, owns (c : Thread nD τ) arg4 fullShare d)
        ∗ (iprop(owns (c : Thread nD τ) arg1 fullShare x ∗ owns (c : Thread nD τ) arg2 fullShare w
            ∗ owns (c : Thread nD τ) arg3 fullShare b ∗ owns (c : Thread nD τ) arg4 fullShare (tileOut x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists (arg4.view.writes (Elt F) f3 [⟨boxO, k0_pay1 (View.readAt (Elt F) arg1.view boxX.toLoadRect f0)
    (View.readAt (Elt F) arg2.view boxW.toLoadRect f1) (View.readAt (Elt F) arg3.view boxB.toLoadRect f2)⟩])
  isplitr
  · ipureintro
    rw [store_whole]
    simp only [View.readAt_eq_ld, View.ld_unit_zero (S := S1024x768) zero2, View.ld_unit_zero (S := S1792x768) zero2,
      View.ld_unit_zero (S := S1x1792) zero2]
  iexact H3

end Cert.KernelIdeal.Tile

end
-- ==== Proof.KernelIdeal.Region.lean ====
/-
  The launch: 56 grid points, one per block of 1792 output columns. At every point the activations
  are the one whole block (fetched once), the weight rows and the bias piece are the point's own
  blocks, and the output tile is written back to its own 1792 columns. This file gives the launch
  its proof data, discharges the body at every point from the tile's triple, runs @main through
  the launch, and reads the run at the six argument arrays: they end as launched.
-/
import proofs.«122158_j5403068859161_1_alg».proof.Proof.KernelIdeal.Around
import proofs.«122158_j5403068859161_1_alg».proof.Proof.KernelIdeal.Tile

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Around Cert.KernelIdeal.Tile

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks and the proof data -/

/-- Window `w`'s block at point `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data on core `c`: the arrays as the launch finds them; after the body at point `t` each input's
    staging buffer still at its block and the output's at the tile computed from the three blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => tileOut (blockAt m c 0 t) (blockAt m c 1 t) (blockAt m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) :
    (dats m 0 c).after 3 t = tileOut (blockAt m c 0 t) (blockAt m c 1 t) (blockAt m c 2 t) := by dsimp only [dats]

/-! ## What the body finds in each input's staging buffer

An input the body leaves in place holds its block at every point, fetched there or not: the activations are
fetched at the first point only and their block index never moves; the weight rows and the bias piece are
fetched at every point. -/

theorem found0 (c : Dev nD) (t : Fin cfg0.N) (d) : (dats m 0 c).before 0 t d = blockAt m c 0 t :=
  ((dats m 0 c).before_in_eq_fetched 0 rfl (fun _ => rfl) (fun _ _ _ => rfl)
    (fun t => by rw [after0]; unfold Dat.blockOf blockAt; rw [A_eq]; try rfl) t d).trans
    (by unfold Dat.fetched Dat.blockOf blockAt; rw [A_eq]; try rfl)
theorem found1 (c : Dev nD) (t : Fin cfg0.N) (d) : (dats m 0 c).before 1 t d = blockAt m c 1 t :=
  ((dats m 0 c).before_in_eq_fetched 1 rfl (fun _ => rfl) (fun _ _ _ => rfl)
    (fun t => by rw [after1]; unfold Dat.blockOf blockAt; rw [A_eq]; try rfl) t d).trans
    (by unfold Dat.fetched Dat.blockOf blockAt; rw [A_eq]; try rfl)
theorem found2 (c : Dev nD) (t : Fin cfg0.N) (d) : (dats m 0 c).before 2 t d = blockAt m c 2 t :=
  ((dats m 0 c).before_in_eq_fetched 2 rfl (fun _ => rfl) (fun _ _ _ => rfl)
    (fun t => by rw [after2]; unfold Dat.blockOf blockAt; rw [A_eq]; try rfl) t d).trans
    (by unfold Dat.fetched Dat.blockOf blockAt; rw [A_eq]; try rfl)

/-! ## The body at a point -/

/-- What the body is handed at point `t`, the four windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: its inputs hold their blocks, so the tile's triple applies; the invariant and what
    the core owes pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [found0, found1, found2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (tile_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The launch theorem's obligation, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates; every array the launch
    stages ends at what the write-backs leave, every other unscoped buffer as the last operation leaves it. -/
theorem run_main : θ_run defs (onTc (τ := τ) (main (F := F))) (s₀ m ρ)
    (Pipeline.FramePost cfgs (dats m) 0 (Pipeline.afterTail₀ cfgs (dats m) 0 (V0 m) behind)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := behind) (hsub := behind_sub) (hfresh := behind_fresh) (hkeep := behind_keeps)
    (hmain := main_around m Variants.none) (hA := A_eq m) (hΦ := fun _ _ => rfl)

/-- An argument array is staged by no window and written by no host operation: it ends as launched. -/
theorem arg_kept (r : PUnit × MemSt nD τ sig (Elt F))
    (h : Pipeline.FramePost cfgs (dats m) 0 (Pipeline.afterTail₀ cfgs (dats m) 0 (V0 m) behind) r) (c : Dev nD)
    (b : Ref sig .tc) (hs : b.isScoped = false) (hb : b ≠ main_v41) (hw : ∀ w, Pipeline.arrRef spec0 w ≠ b)
    (hV : V m c b = m ((c : Thread nD τ).loc b)) :
    r.2.mem ((c.tc : Thread nD τ).loc b) = m ((c.tc : Thread nD τ).loc b) :=
  (((h c).2 b (Pipeline.mem_restRefs_of b hs hw)).trans (tail_keeps (dats m) c b hb hw)).trans hV

/-- The program runs to the end, faults nowhere, and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨arg_kept m r h c main_arg0 (by decide) (by decide) (by decide) (V_main_arg0 m c),
     arg_kept m r h c main_arg1 (by decide) (by decide) (by decide) (V_main_arg1 m c),
     arg_kept m r h c main_arg2 (by decide) (by decide) (by decide) (V_main_arg2 m c),
     arg_kept m r h c main_arg3 (by decide) (by decide) (by decide) (V_main_arg3 m c),
     arg_kept m r h c main_arg4 (by decide) (by decide) (by decide) (V_main_arg4 m c),
     arg_kept m r h c main_arg5 (by decide) (by decide) (by decide) (V_main_arg5 m c)⟩) (run_main m ρ)

end Cert.KernelIdeal.Region

end
-- ==== Proof.KernelIdeal.TileValue.lean ====
/-
  The tile's arithmetic at one entry, on the extended reals. Narrowing the two operands to
  sixteen bits changes nothing there, the matrix unit started from a zero accumulator gives the
  plain sum over the 768 inner positions, and the bias piece, one row, is repeated on every row:
  entry (p, q) of the tile is the sum over k of x[p, k] * w[q, k], plus b[0, q].
-/
import proofs.«122158_j5403068859161_1_alg».proof.Proof.KernelIdeal.Tile
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Idealize.ShloMosaic Idealize.ShloMosaic.ValueIdx
open Cert.KernelIdeal Cert.KernelIdeal.Gen Cert.KernelIdeal.Tile

/-! ## Which operand entries the contraction pairs

Both operands are contracted along their second axis: output entry (p, q) pairs row p of the left
operand with row q of the right one. -/

theorem left_row (i : S1024x1792.Idx) (q : dot_S1024x768_S1792x768_S1024x1792_1_1_0_0_n_n.contr.Idx) :
    (dot_S1024x768_S1792x768_S1024x1792_1_1_0_0_n_n.lhsIdx i q 0).val = (i 0).val := by
  unfold DotDims.lhsIdx
  rw [dif_neg (show ¬(0 : Fin S1024x768.rank) ∈ dot_S1024x768_S1792x768_S1024x1792_1_1_0_0_n_n.lhsBatch by decide),
    dif_pos (show (0 : Fin S1024x768.rank) ∈ dot_S1024x768_S1792x768_S1024x1792_1_1_0_0_n_n.lhsNonContracting by decide)]
  rfl
theorem left_inner (i : S1024x1792.Idx) (q : dot_S1024x768_S1792x768_S1024x1792_1_1_0_0_n_n.contr.Idx) :
    (dot_S1024x768_S1792x768_S1024x1792_1_1_0_0_n_n.lhsIdx i q 1).val = (q ⟨0, by decide⟩).val :=
  dot_S1024x768_S1792x768_S1024x1792_1_1_0_0_n_n.lhsIdx_val_of_single rfl i q
theorem right_row (i : S1024x1792.Idx) (q : dot_S1024x768_S1792x768_S1024x1792_1_1_0_0_n_n.contr.Idx) :
    (dot_S1024x768_S1792x768_S1024x1792_1_1_0_0_n_n.rhsIdx i q 0).val = (i 1).val := by
  unfold DotDims.rhsIdx
  rw [dif_neg (show ¬(0 : Fin S1792x768.rank) ∈ dot_S1024x768_S1792x768_S1024x1792_1_1_0_0_n_n.rhsBatch by decide),
    dif_pos (show (0 : Fin S1792x768.rank) ∈ dot_S1024x768_S1792x768_S1024x1792_1_1_0_0_n_n.rhsNonContracting by decide)]
  rfl
theorem right_inner (i : S1024x1792.Idx) (q : dot_S1024x768_S1792x768_S1024x1792_1_1_0_0_n_n.contr.Idx) :
    (dot_S1024x768_S1792x768_S1024x1792_1_1_0_0_n_n.rhsIdx i q 1).val = (q ⟨0, by decide⟩).val :=
  dot_S1024x768_S1792x768_S1024x1792_1_1_0_0_n_n.rhsIdx_val_of_single rfl i q

/-- The product into a zero accumulator, at entry (p, q): the sum over the inner position. -/
theorem product_entry {φ₁ φ₂ : FTy} (L : FVec Ideal S1024x768 φ₁) (R : FVec Ideal S1792x768 φ₂) (p : Fin 1024) (q : Fin 1792) :
    matmul dot_S1024x768_S1792x768_S1024x1792_1_1_0_0_n_n none L R (constant (F := Ideal) S1024x1792 .f32 0x00000000#32) (ix2 p q)
      = ∑ k : Fin 768, L (ix2 p k) * R (ix2 q k) := by
  show FloatOps.matmul dot_S1024x768_S1792x768_S1024x1792_1_1_0_0_n_n none L R (constant (F := Ideal) S1024x1792 .f32 0x00000000#32) (ix2 p q) = _
  rw [Ideal.matmul_constant_zero_apply, ← Equiv.sum_comp (contrEquiv1 dot_S1024x768_S1792x768_S1024x1792_1_1_0_0_n_n 768 rfl rfl).symm]
  refine Finset.sum_congr rfl fun k _ => ?_
  have hk := contrEquiv1_symm_val dot_S1024x768_S1792x768_S1024x1792_1_1_0_0_n_n 768 rfl rfl k
  have el : dot_S1024x768_S1792x768_S1024x1792_1_1_0_0_n_n.lhsIdx (ix2 p q) ((contrEquiv1 dot_S1024x768_S1792x768_S1024x1792_1_1_0_0_n_n 768 rfl rfl).symm k) = ix2 p k := funext fun a => Fin.ext (by
    match a with
    | ⟨0, _⟩ => exact left_row _ _
    | ⟨1, _⟩ => exact (left_inner _ _).trans hk)
  have er : dot_S1024x768_S1792x768_S1024x1792_1_1_0_0_n_n.rhsIdx (ix2 p q) ((contrEquiv1 dot_S1024x768_S1792x768_S1024x1792_1_1_0_0_n_n 768 rfl rfl).symm k) = ix2 q k := funext fun a => Fin.ext (by
    match a with
    | ⟨0, _⟩ => exact right_row _ _
    | ⟨1, _⟩ => exact (right_inner _ _).trans hk)
  rw [el, er]

/-- The body's value, spelled out: the sum of the product and the repeated bias row. -/
theorem tileOut_eq {F : FTy → Type} [FloatOps F] (x : Vec F S1024x768 .f32) (w : Vec F S1792x768 .f32) (b : Vec F S1x1792 .f32) :
    tileOut x w b = addf
      (matmul dot_S1024x768_S1792x768_S1024x1792_1_1_0_0_n_n none (truncf .bf16 (shapeCast S1024x768 x shapeCasts_S1024x768_S1024x768) bitsLt_bf16_f32)
        (truncf .bf16 (shapeCast S1792x768 w shapeCasts_S1792x768_S1792x768) bitsLt_bf16_f32) (constant S1024x1792 .f32 0x00000000#32))
      (broadcastTo S1024x1792 (shapeCast S1x1792 b shapeCasts_S1x1792_S1x1792) broadcasts_S1x1792_S1024x1792) := rfl

/-- Entry (p, q) of the tile. -/
theorem tile_entry (x : Vec Ideal S1024x768 .f32) (w : Vec Ideal S1792x768 .f32) (b : Vec Ideal S1x1792 .f32) (p : Fin 1024) (q : Fin 1792) :
    tileOut x w b (ix2 p q) = (∑ k : Fin 768, x (ix2 p k) * w (ix2 q k)) + b (ix2 (0 : Fin 1) q) := by
  rw [tileOut_eq, shapeCast_self, shapeCast_self, shapeCast_self, addf_apply, product_entry, broadcastTo_1b_ab_apply]
  rfl

end Cert.KernelIdeal.TileValue

end
-- ==== Proof.Linear.lean ====
/-
  The linear layer as one function of its inputs, index by index, on the extended reals:
  entry (r, j) of the output is the sum over the 768 inner positions k of x[r, k] * w[j, k], plus b[j].
  Both programs are shown to end at this function; no law beyond that is needed, so no input has to
  be finite.
-/
import Idealize.ShloMosaic.PureOps.Ideal
import Idealize.ShloMosaic.Lib.ValueIdx

noncomputable section

namespace Cert.Linear

open Idealize.ShloMosaic Idealize.ShloMosaic.ValueIdx

/-- Entry (r, j): the r-th activation row against the j-th weight row, plus the j-th bias entry. -/
def entry (x : FVec Ideal ⟨2, ![1024, 768]⟩ .f32) (w : FVec Ideal ⟨2, ![100000, 768]⟩ .f32) (b : FVec Ideal ⟨1, ![100000]⟩ .f32)
    (r : Fin 1024) (j : Fin 100000) : EReal :=
  (∑ k : Fin 768, x (ix2 r k) * w (ix2 j k)) + b (ix1 j)

/-- The whole 1024 x 100000 output. -/
def out (x : FVec Ideal ⟨2, ![1024, 768]⟩ .f32) (w : FVec Ideal ⟨2, ![100000, 768]⟩ .f32) (b : FVec Ideal ⟨1, ![100000]⟩ .f32) :
    FVec Ideal ⟨2, ![1024, 100000]⟩ .f32 :=
  fun i => entry x w b ⟨(i 0).val, (i 0).isLt⟩ ⟨(i 1).val, (i 1).isLt⟩

theorem out_apply (x : FVec Ideal ⟨2, ![1024, 768]⟩ .f32) (w : FVec Ideal ⟨2, ![100000, 768]⟩ .f32) (b : FVec Ideal ⟨1, ![100000]⟩ .f32)
    (r : Fin 1024) (j : Fin 100000) : out x w b (ix2 r j) = entry x w b r j := rfl

end Cert.Linear

end
-- ==== Proof.KernelIdeal.Result.lean ====
/-
  What the idealized kernel's program returns. The launch writes, at point t, the tile for output
  columns 1792 t .. 1792 t + 1791: entry (r, j) of the padded output is the sum over k of
  acts[r, k] * Wpad[j, k], plus bpad[j], where Wpad and bpad are the weights and the bias with 352
  zero rows (entries) appended. The 56 tiles cover the 100352 padded columns, the last operation
  keeps columns 0 .. 99999, and on those the padded arrays are the weights and the bias themselves:
  the result is the linear layer of the gathered activations.
-/
import proofs.«122158_j5403068859161_1_alg».proof.Proof.KernelIdeal.Region
import proofs.«122158_j5403068859161_1_alg».proof.Proof.KernelIdeal.TileValue
import proofs.«122158_j5403068859161_1_alg».proof.Proof.Linear
import proofs.«122158_j5403068859161_1_alg».proof.Proof.Gen.ReferenceIdeal.Read
import Idealize.ShloMosaic.Lib.ValueIdx
import Idealize.ShloMosaic.Lib.ValueLayout
import Idealize.ShloMosaic.Lib.KernelVsHost
import Idealize.ShloMosaic.Lib.StableHlo.Run
import Idealize.ShloMosaic.Lib.Pipeline.Value

set_option maxRecDepth 16384

noncomputable section

namespace Cert.KernelIdeal.Result

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Around Cert.KernelIdeal.Tile Cert.KernelIdeal.Region
  Cert.KernelIdeal.TileValue

variable (m : (ℓ : Loc nD τ sig) → Buf (Elt Ideal) ℓ) (ρ : Dev nD → PrngReg)

/-! ## The three arrays the launch reads -/

/-- The gathered activations, the padded weights and the padded bias row, as the launch finds them. -/
abbrev actsArr (c : Dev nD) : FVec Ideal S1024x768 .f32 := V m c main_v36
abbrev wArr (c : Dev nD) : FVec Ideal S100352x768 .f32 := V m c main_v37
abbrev bArr (c : Dev nD) : FVec Ideal S1x100352 .f32 := V m c main_v39

/-- The padded output as one function of them. -/
def padded (X : FVec Ideal S1024x768 .f32) (Wp : FVec Ideal S100352x768 .f32) (Bp : FVec Ideal S1x100352 .f32) :
    FVec Ideal S1024x100352 .f32 :=
  fun i => (∑ k : Fin 768, X (ix2 ⟨(i 0).val, (i 0).isLt⟩ k) * Wp (ix2 ⟨(i 1).val, (i 1).isLt⟩ k))
    + Bp (ix2 (0 : Fin 1) ⟨(i 1).val, (i 1).isLt⟩)

theorem padded_apply (X : FVec Ideal S1024x768 .f32) (Wp : FVec Ideal S100352x768 .f32) (Bp : FVec Ideal S1x100352 .f32)
    (r : Fin 1024) (j : Fin 100352) :
    padded X Wp Bp (ix2 r j) = (∑ k : Fin 768, X (ix2 r k) * Wp (ix2 j k)) + Bp (ix2 (0 : Fin 1) j) := rfl

/-! ## Where each window's block lies -/

/-- Point t reads the one activation block, weight rows and bias entries from 1792 t on, and writes output
    columns from 1792 t on; there are 56 points. -/
theorem where_blocks : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val ∧ t.val < 56 :=
  (by decide +kernel : ∀ t : Fin grid0.N, _)

theorem acts_at (c : Dev nD) (t : Fin cfg0.N) (p : Fin 1024) (k : Fin 768) :
    blockAt m c 0 t (ix2 p k) = actsArr m c (ix2 p k) := by
  obtain ⟨e0, e1, -⟩ := where_blocks t
  show V m c main_v36 (((cfg0.win 0).blk t).view.emb (ix2 p k)) = V m c main_v36 (ix2 p k)
  refine congrArg _ (funext fun a => Fin.ext ?_)
  match a with
  | ⟨0, _⟩ => show win0_0.index t (0 : Fin 2) * 1024 + 1 * p.val = p.val; omega
  | ⟨1, _⟩ => show win0_0.index t (1 : Fin 2) * 768 + 1 * k.val = k.val; omega

theorem w_at (c : Dev nD) (t : Fin cfg0.N) (q : Fin 1792) (k : Fin 768) (j : Fin 100352) (hj : j.val = t.val * 1792 + q.val) :
    blockAt m c 1 t (ix2 q k) = wArr m c (ix2 j k) := by
  obtain ⟨-, -, e2, e3, -⟩ := where_blocks t
  show V m c main_v37 (((cfg0.win 1).blk t).view.emb (ix2 q k)) = V m c main_v37 (ix2 j k)
  refine congrArg _ (funext fun a => Fin.ext ?_)
  match a with
  | ⟨0, _⟩ => show win0_1.index t (0 : Fin 2) * 1792 + 1 * q.val = j.val; omega
  | ⟨1, _⟩ => show win0_1.index t (1 : Fin 2) * 768 + 1 * k.val = k.val; omega

theorem b_at (c : Dev nD) (t : Fin cfg0.N) (q : Fin 1792) (j : Fin 100352) (hj : j.val = t.val * 1792 + q.val) :
    blockAt m c 2 t (ix2 (0 : Fin 1) q) = bArr m c (ix2 (0 : Fin 1) j) := by
  obtain ⟨-, -, -, -, e4, e5, -⟩ := where_blocks t
  show V m c main_v39 (((cfg0.win 2).blk t).view.emb (ix2 (0 : Fin 1) q)) = V m c main_v39 (ix2 (0 : Fin 1) j)
  refine congrArg _ (funext fun a => Fin.ext ?_)
  match a with
  | ⟨0, _⟩ => show win0_2.index t (0 : Fin 2) * 1 + 1 * 0 = 0; omega
  | ⟨1, _⟩ => show win0_2.index t (1 : Fin 2) * 1792 + 1 * q.val = j.val; omega

/-! ## What a point writes back, and the cover -/

/-- Point t writes back block t of the padded output. -/
theorem flushed_eq (c : Dev nD) (t : Fin cfg0.N) :
    (dats m 0 c).flushed 3 t = ((cfg0.win 3).blk t).view.read (Elt Ideal) (padded (actsArr m c) (wArr m c) (bArr m c)) := by
  show (cfg0.win 3).cut (grid0.coords t) ((dats m 0 c).after 3 t) = _
  rw [after3]
  obtain ⟨-, -, -, -, -, -, e6, e7, ht⟩ := where_blocks t
  refine funext fun (y : S1024x1792.Idx) => ?_
  obtain ⟨p, q, rfl⟩ : ∃ (p : Fin 1024) (q : Fin 1792), y = ix2 p q := ⟨y 0, y 1, eq_ix2 y⟩
  have hj : t.val * 1792 + q.val < 100352 := by have := q.isLt; omega
  have hemb : ((cfg0.win 3).blk t).view.emb (ix2 p q) = ix2 p (⟨t.val * 1792 + q.val, hj⟩ : Fin 100352) := by
    funext a; apply Fin.ext
    match a with
    | ⟨0, _⟩ => show win0_3.index t (0 : Fin 2) * 1024 + 1 * p.val = p.val; omega
    | ⟨1, _⟩ => show win0_3.index t (1 : Fin 2) * 1792 + 1 * q.val = t.val * 1792 + q.val; omega
  show tileOut (blockAt m c 0 t) (blockAt m c 1 t) (blockAt m c 2 t) (ix2 p q)
    = padded (actsArr m c) (wArr m c) (bArr m c) (((cfg0.win 3).blk t).view.emb (ix2 p q))
  rw [hemb, padded_apply]
  refine (tile_entry _ _ _ p q).trans ?_
  refine congrArg₂ (· + ·) (Finset.sum_congr rfl fun k _ => ?_) ?_
  · rw [acts_at m c t p k, w_at m c t q k ⟨_, hj⟩ rfl]
  · exact b_at m c t q ⟨_, hj⟩ rfl

/-- An index of the padded output is in point t's block iff each coordinate is in the block's range. -/
theorem mem_block (t : Fin cfg0.N) (i : S1024x100352.Idx) :
    i ∈ ((cfg0.win 3).blk t).view.set ↔ ∀ a : Fin 2, win0_3.index t a * S1024x1792.size a ≤ (i a).val
      ∧ (i a).val < win0_3.index t a * S1024x1792.size a + S1024x1792.size a := by
  show i ∈ ((View.whole main_v40).slice (win0_3.rect t)).set ↔ _
  rw [View.set_slice_whole, Rect.mem_set_unit]
  exact Iff.rfl

/-- Column j lies in the block of point j / 1792. -/
theorem covered (i : S1024x100352.Idx) :
    ∃ t : Fin cfg0.N, (cfg0.win 3).flush t = true ∧ i ∈ ((cfg0.win 3).blk t).view.set := by
  have hi0 : (i 0).val < 1024 := (i 0).isLt
  have hi1 : (i 1).val < 100352 := (i 1).isLt
  obtain ⟨t, htv⟩ : ∃ t : Fin cfg0.N, t.val = (i 1).val / 1792 :=
    ⟨⟨(i 1).val / 1792, by show (i 1).val / 1792 < grid0.N; rw [N_0]; omega⟩, rfl⟩
  obtain ⟨-, -, -, -, -, -, e6, e7, ht⟩ := where_blocks t
  refine ⟨t, flush0_3 t, (mem_block t i).mpr fun a => ?_⟩
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1792 ≤ (i 1).val ∧ (i 1).val < win0_3.index t (1 : Fin 2) * 1792 + 1792
    omega

/-- After the launch the padded output array holds `padded` of the three arrays. -/
theorem final (c : Dev nD) : (dats m 0 c).arrAt 3 cfg0.N = padded (actsArr m c) (wArr m c) (bArr m c) :=
  (dats m 0 c).arrAt_eq_of_cover 3 _ (fun t _ => flushed_eq m c t) covered

/-! ## The last operation, and the result as the linear layer -/

/-- The returned array: the padded output's first 100000 columns. -/
theorem returned_eq (c : Dev nD) :
    Pipeline.afterTail₀ cfgs (dats m) 0 (V0 m) behind c main_v41
      = extractStridedSlice S1024x100000 ![0, 0] (padded (actsArr m c) (wArr m c) (bArr m c)) slices_S1024x100352_S1024x100000_0_0 := by
  unfold Pipeline.afterTail₀
  show StableHlo.after hostOps1 _ (Proc.devRef .tc main_v41) = _
  after_results
  exact congrArg (fun z => extractStridedSlice S1024x100000 ![0, 0] z slices_S1024x100352_S1024x100000_0_0)
    ((Pipeline.withArrays_arr spec0 launch0.win.arr_inj c (V0 m c) (fun w => (dats m 0 c).arrAt w cfg0.N) 3).trans (final m c))

/-- The activations the launch finds are the ones the reference gathers: one value, built by the same
    operations in both programs. -/
theorem acts_eq (c : Dev nD) :
    actsArr m c = Cert.ReferenceIdeal.Read.val_main_v36 (F := Ideal) (m ((c : Thread nD τ).loc main_arg0)) (m ((c : Thread nD τ).loc main_arg1))
      (m ((c : Thread nD τ).loc main_arg2)) (m ((c : Thread nD τ).loc main_arg3)) := by
  dsimp only [actsArr, V, V0, ahead]
  simp only [hostOps0, hostOps0_1, hostOps0_2, hostOps0_3, hostOps0_4, List.flatten_cons, List.flatten_nil, List.append_nil,
    List.cons_append, List.nil_append]
  after_results
  rfl

/-- The weights with 352 rows of the padding value appended; -/
theorem w_eq (c : Dev nD) :
    wArr m c = pad S100352x768 ![0, 0] ![352, 0] ![0, 0] (m ((c : Thread nD τ).loc main_arg4) : FVec Ideal S100000x768 .f32)
      (sitofp (F := Ideal) .f32 (constantI S_ 32 0#32))
      pads_S100000x768_S100352x768_03520_000 h_S_ := by
  dsimp only [wArr, V, V0, ahead]
  simp only [hostOps0, hostOps0_1, hostOps0_2, hostOps0_3, hostOps0_4, List.flatten_cons, List.flatten_nil, List.append_nil,
    List.cons_append, List.nil_append]
  after_results
  rfl

/-- the bias with 352 entries of it appended, as one row. -/
theorem b_eq (c : Dev nD) :
    bArr m c = shapeCast S1x100352 (pad S100352 ![0] ![352] ![0] (m ((c : Thread nD τ).loc main_arg5) : FVec Ideal S100000 .f32)
      (sitofp (F := Ideal) .f32 (constantI S_ 32 0#32))
      pads_S100000_S100352_03520 h_S_) shapeCasts_S100352_S1x100352 := by
  dsimp only [bArr, V, V0, ahead]
  simp only [hostOps0, hostOps0_1, hostOps0_2, hostOps0_3, hostOps0_4, List.flatten_cons, List.flatten_nil, List.append_nil,
    List.cons_append, List.nil_append]
  after_results
  rfl

/-- On the first 100000 columns the padding is never read: the slice of the padded output over padded weights
    and bias is the linear layer over the weights and the bias themselves. -/
theorem slice_padded (X : FVec Ideal S1024x768 .f32) (x4 : FVec Ideal S100000x768 .f32) (x5 : FVec Ideal S100000 .f32)
    (z : S_.Idx → Ideal .f32) :
    extractStridedSlice S1024x100000 ![0, 0]
        (padded X (pad S100352x768 ![0, 0] ![352, 0] ![0, 0] x4 z pads_S100000x768_S100352x768_03520_000 h_S_)
          (shapeCast S1x100352 (pad S100352 ![0] ![352] ![0] x5 z pads_S100000_S100352_03520 h_S_) shapeCasts_S100352_S1x100352))
        slices_S1024x100352_S1024x100000_0_0
      = Cert.Linear.out X x4 x5 := by
  funext i
  obtain ⟨r, j, rfl⟩ : ∃ (r : Fin 1024) (j : Fin 100000), i = ix2 r j := ⟨i 0, i 1, eq_ix2 i⟩
  have hj : j.val < 100352 := by have := j.isLt; omega
  rw [slice2_axis1_apply 0 _ _ r j ⟨j.val, hj⟩ (Nat.zero_add _).symm, padded_apply, Cert.Linear.out_apply]
  unfold Cert.Linear.entry
  refine congrArg₂ (· + ·) (Finset.sum_congr rfl fun k _ => congrArg (X (ix2 r k) * ·) ?_) ?_
  · refine pad_apply_of_inside _ _ _ x4 z _ _ (ix2 (⟨j.val, hj⟩ : Fin 100352) k) (ix2 j k) fun a => ?_
    match a with
    | ⟨0, _⟩ => show j.val = 0 + j.val * (0 + 1); omega
    | ⟨1, _⟩ => show k.val = 0 + k.val * (0 + 1); omega
  · refine (shapeCast_apply _ _ (ix2 (0 : Fin 1) (⟨j.val, hj⟩ : Fin 100352)) (ix1 (⟨j.val, hj⟩ : Fin 100352)) ?_).trans ?_
    · rw [Shape.rowMajor_val_one, Shape.rowMajor_val_two]
      show j.val = 0 * 100352 + j.val
      omega
    · refine pad_apply_of_inside _ _ _ x5 z _ _ (ix1 (⟨j.val, hj⟩ : Fin 100352)) (ix1 j) fun a => ?_
      match a with
      | ⟨0, _⟩ => show j.val = 0 + j.val * (0 + 1); omega

/-! ## The run, read at the result -/

/-- Every weakly fair execution of the idealized kernel's @main terminates with the result at the linear layer
    of the gathered activations, the weights and the bias, and the six arguments as launched. -/
theorem run : θ_run defs (onTc (τ := τ) (main (F := Ideal))) ⟨m, fun _ => 0, ρ⟩ (fun r => ∀ c : Dev nD,
      r.2.mem ((c.tc : Thread nD τ).loc main_v41)
        = Cert.Linear.out (Cert.ReferenceIdeal.Read.val_main_v36 (F := Ideal) (m ((c : Thread nD τ).loc main_arg0)) (m ((c : Thread nD τ).loc main_arg1))
            (m ((c : Thread nD τ).loc main_arg2)) (m ((c : Thread nD τ).loc main_arg3))) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(((h c).2 main_v41 (Pipeline.mem_restRefs_of main_v41 (by decide) (by decide))).trans (returned_eq m c)).trans (by
        rw [acts_eq m c, w_eq m c, b_eq m c]; exact slice_padded _ _ _ _),
     arg_kept m r h c main_arg0 (by decide) (by decide) (by decide) (V_main_arg0 m c),
     arg_kept m r h c main_arg1 (by decide) (by decide) (by decide) (V_main_arg1 m c),
     arg_kept m r h c main_arg2 (by decide) (by decide) (by decide) (V_main_arg2 m c),
     arg_kept m r h c main_arg3 (by decide) (by decide) (by decide) (V_main_arg3 m c),
     arg_kept m r h c main_arg4 (by decide) (by decide) (by decide) (V_main_arg4 m c),
     arg_kept m r h c main_arg5 (by decide) (by decide) (by decide) (V_main_arg5 m c)⟩) (run_main m ρ)

end Cert.KernelIdeal.Result

end
-- ==== Proof.RefLinear.lean ====
/-
  The reference is the linear layer of its activations: its transpose of the weights, its product
  contracting the inner axis, and its two broadcasts of the bias, read at an index (r, j), give
  the sum over k of acts[r, k] * W[j, k] plus b[j]. The activations (the three gathered row blocks
  side by side) are carried as one value: the kernel's program builds them by the same operations.
-/
import proofs.«122158_j5403068859161_1_alg».proof.Proof.Gen.ReferenceIdeal.Read
import proofs.«122158_j5403068859161_1_alg».proof.Proof.Linear

noncomputable section

namespace Cert.ReferenceIdeal.Linear

open Idealize.ShloMosaic Idealize.ShloMosaic.ValueIdx
open Cert.ReferenceIdeal Cert.ReferenceIdeal.Read

/-- The reference's result is the layer applied to its gathered activations, the weights and the bias. -/
theorem result_eq (x0 : (⟨S1024x2, .i32⟩ : BufTy).Contents (Elt Ideal)) (x1 : (⟨S100000x2, .i32⟩ : BufTy).Contents (Elt Ideal))
    (x2 : (⟨S50000x256, .f32⟩ : BufTy).Contents (Elt Ideal)) (x3 : (⟨S500x256, .f32⟩ : BufTy).Contents (Elt Ideal))
    (x4 : (⟨S100000x768, .f32⟩ : BufTy).Contents (Elt Ideal)) (x5 : (⟨S100000, .f32⟩ : BufTy).Contents (Elt Ideal)) :
    val_main_v41 (F := Ideal) x0 x1 x2 x3 x4 x5 = Cert.Linear.out (val_main_v36 (F := Ideal) x0 x1 x2 x3) x4 x5 := by
  funext i
  obtain ⟨r, j, rfl⟩ : ∃ (r : Fin 1024) (j : Fin 100000), i = ix2 r j := ⟨i 0, i 1, eq_ix2 i⟩
  rw [val_main_v41_apply, val_main_v38_apply, val_main_v40_apply, val_main_v39_apply, Cert.Linear.out_apply]
  simp only [val_main_v37_apply]
  have e1 : ∀ k : Fin 768, lidx_main_v38 (ix2 r j) k = ix2 r k := fun k => funext fun a => Fin.ext (by
    match a with
    | ⟨0, _⟩ => rfl
    | ⟨1, _⟩ => rfl)
  have e2 : ∀ k : Fin 768, idx_main_v37 (ridx_main_v38 (ix2 r j) k) = ix2 j k := fun k => funext fun a => Fin.ext (by
    match a with
    | ⟨0, _⟩ => rfl
    | ⟨1, _⟩ => rfl)
  have e3 : idx_main_v39 (idx_main_v40 (ix2 r j)) = ix1 j := funext fun a => Fin.ext (by
    match a with
    | ⟨0, _⟩ => rfl)
  simp only [e1, e2, e3]
  rfl

end Cert.ReferenceIdeal.Linear

end
-- ==== Proof.lean ====
/-
  A linear layer over gathered embeddings: out = acts · Wᵀ + b, where the 1024 x 768 activations are three
  gathered 256-wide row blocks side by side, W is 100000 x 768 and b has 100000 entries.

  The kernel's program builds the activations with the same host operations as the reference, pads W and b
  with 352 zero rows (entries) to 56 column tiles of 1792, computes each tile on the matrix unit from operands
  narrowed to sixteen bits, adds the bias row, and cuts the padded columns off again. On the extended reals
  the narrowing is the identity and the matrix unit's product into a zero accumulator is the plain sum, so
  entry (r, j) of its result is the sum over k of acts[r, k] * W[j, k], plus b[j]: the padding is never read
  on the columns that are kept. The reference's transpose, product and broadcast bias give the same sum.
  Neither side uses a law that fails at an infinity, so the finiteness of the inputs is not used.

  The three programs run to the end and leave their arguments as launched: the kernel's two readings by the
  launch theorem for a pipelined call with host operations on both sides (every tile access is a whole staging
  buffer, and no host operation writes an argument), the reference by its run.
-/
import proofs.«122158_j5403068859161_1_alg».proof.Defs
import proofs.«122158_j5403068859161_1_alg».proof.Proof.Gen.Kernel
import proofs.«122158_j5403068859161_1_alg».proof.Proof.Gen.KernelIdeal
import proofs.«122158_j5403068859161_1_alg».proof.Proof.Gen.ReferenceIdeal
import proofs.«122158_j5403068859161_1_alg».proof.Proof.Gen.ReferenceIdeal.Run
import proofs.«122158_j5403068859161_1_alg».proof.Proof.Gen.ReferenceIdeal.Read
import proofs.«122158_j5403068859161_1_alg».proof.Proof.Gen.Pre_finite_inputs
import proofs.«122158_j5403068859161_1_alg».proof.Proof.Kernel.Region
import proofs.«122158_j5403068859161_1_alg».proof.Proof.KernelIdeal.Region
import proofs.«122158_j5403068859161_1_alg».proof.Proof.KernelIdeal.Result
import proofs.«122158_j5403068859161_1_alg».proof.Proof.RefLinear
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_kernel : Cert.frame_Kernel := fun m ρ _ => Cert.Kernel.Region.frame m ρ

/-- So does its idealization. -/
theorem frame_kernelIdeal : Cert.frame_KernelIdeal := fun m ρ _ => Cert.KernelIdeal.Region.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read on the extended reals. -/
theorem preserves : Cert.preserves_Kernel_KernelIdeal := trivial

/-- Both idealized programs end at the linear layer of the gathered activations, the weights and the bias. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.Linear.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
